-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩

abbrev nBuf : Space → Nat
  | .hbm => 24
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x16x64 : S256x1024.ShapeCasts S256x16x64
  reduces_S256x16x16_S256x16 : S256x16x16.Reduces [2] S256x16
  shapeCasts_S256x16_S256x16x1 : S256x16.ShapeCasts S256x16x1
  broadcasts_S256x16x1_S256x16x16 : S256x16x1.Broadcasts S256x16x16
  shapeCasts_S256x16x64_S256x1024 : S256x16x64.ShapeCasts S256x1024
  dot_S256x1024_S1024x1024_S256x1024_1_0_0_1_n_n_wf : DotDims.WF S256x1024 S1024x1024 S256x1024 [1] [0] [0] [1] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S16384x16x64 : Shape := ⟨3, ![16384, 16, 64]⟩
abbrev S16384x16x16 : Shape := ⟨3, ![16384, 16, 16]⟩
abbrev S_ : Shape := ⟨0, ![]⟩
abbrev S16384x16 : Shape := ⟨2, ![16384, 16]⟩
abbrev S16384x16x1 : Shape := ⟨3, ![16384, 16, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x16x64, .f32⟩
  | .hbm, ⟨17, _⟩ => ⟨S1024x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x16x64, .f32⟩
  | .hbm, ⟨23, _⟩ => ⟨S1024x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x16x64, .f32⟩
  | .hbm, ⟨29, _⟩ => ⟨S16384x16x16, .f32⟩
  | .hbm, ⟨30, _⟩ => ⟨S_, .f32⟩
  | .hbm, ⟨31, _⟩ => ⟨S16384x16x16, .f32⟩
  | .hbm, ⟨32, _⟩ => ⟨S16384x16x16, .f32⟩
  | .hbm, ⟨33, _⟩ => ⟨S_, .f32⟩
  | .hbm, ⟨34, _⟩ => ⟨S16384x16, .f32⟩
  | .hbm, ⟨35, _⟩ => ⟨S_, .f32⟩
  | .hbm, ⟨36, _⟩ => ⟨S16384x16, .f32⟩
  | .hbm, ⟨37, _⟩ => ⟨S16384x16, .f32⟩
  | .hbm, ⟨38, _⟩ => ⟨S16384x16x1, .f32⟩
  | .hbm, ⟨39, _⟩ => ⟨S16384x16x16, .f32⟩
  | .hbm, ⟨40, _⟩ => ⟨S16384x16x16, .f32⟩
  | .hbm, ⟨41, _⟩ => ⟨S16384x16x16, .f32⟩
  | .hbm, ⟨42, _⟩ => ⟨S_, .f32⟩
  | .hbm, ⟨43, _⟩ => ⟨S16384x16, .f32⟩
  | .hbm, ⟨44, _⟩ => ⟨S16384x16x1, .f32⟩
  | .hbm, ⟨45, _⟩ => ⟨S16384x16x16, .f32⟩
  | .hbm, ⟨46, _⟩ => ⟨S16384x16x16, .f32⟩
  | .hbm, ⟨47, _⟩ => ⟨S16384x16x64, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  bcast_S_S16384x16x16 : S_.BroadcastsInDim S16384x16x16 (![] : Fin 0 → Fin S16384x16x16.rank)
  reducesTo_S16384x16x16_S16384x16_d2 : S16384x16x16.ReducesTo [2] S16384x16
  h_S_ : 0 < S_.numel
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x16x1_S16384x16x16_0_1_2 : S16384x16x1.BroadcastsInDim S16384x16x16 (![0, 1, 2] : Fin 3 → Fin S16384x16x16.rank)
  shapeCasts_S16384x16x64_S16384x1024 : S16384x16x64.ShapeCasts S16384x1024
  dot_S16384x1024_S1024x1024_S16384x1024_1_0_0_1_n_n_wf : DotDims.WF S16384x1024 S1024x1024 S16384x1024 [1] [0] [0] [1] [] []
  dot_S16384x16x64_S16384x16x64_S16384x16x16_2_2_1_1_0_0_wf : DotDims.WF S16384x16x64 S16384x16x64 S16384x16x16 [2] [2] [1] [1] [0] [0]
  dot_S16384x16x16_S16384x16x64_S16384x16x64_2_1_1_2_0_0_wf : DotDims.WF S16384x16x16 S16384x16x64 S16384x16x64 [2] [1] [1] [2] [0] [0]

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x16x64_S16384x16x64_S16384x16x16_2_2_1_1_0_0 : DotDims S16384x16x64 S16384x16x64 S16384x16x16 where
  lhsContracting := [2]
  rhsContracting := [2]
  lhsNonContracting := [1]
  rhsNonContracting := [1]
  lhsBatch := [0]
  rhsBatch := [0]
  wf := dot_S16384x16x64_S16384x16x64_S16384x16x16_2_2_1_1_0_0_wf
def dot_S16384x16x16_S16384x16x64_S16384x16x64_2_1_1_2_0_0 : DotDims S16384x16x16 S16384x16x64 S16384x16x64 where
  lhsContracting := [2]
  rhsContracting := [1]
  lhsNonContracting := [1]
  rhsNonContracting := [2]
  lhsBatch := [0]
  rhsBatch := [0]
  wf := dot_S16384x16x16_S16384x16x64_S16384x16x64_2_1_1_2_0_0_wf

class Facts : Prop extends Facts₀ where

variable [Facts]
-- ==== Proof.TokenAttn.lean ====
/-
  Attention over the HEADS of one token, as a function of the token's three input rows.

  A token carries 1024 features, read as 16 heads of 64 coordinates: coordinate d of head h sits at feature
  64·h + d. Its query, key and value rows are first sent through an affine map each, x ↦ x·Wᵀ + b. Head h then
  scores head g by the inner product of h's query coordinates with g's key coordinates, divided by 8; the sixteen
  scores of a head are turned into weights by the soft maximum (each score minus the largest, exponentiated, and
  divided by the sum of the sixteen exponentials); head h's result is the weighted sum of the value coordinates of
  the sixteen heads; and the sixteen results, laid side by side as 1024 features again, go through a last affine map.
  Everything is over the extended reals, every operation the exact one, the numbers 8 and −∞ kept as the words the
  programs write for them. Nothing here mentions a tile or an array: both programs compute this row function.
-/
import Idealize.ShloMosaic.PureOps.Ideal
import Idealize.ShloMosaic.Lib.ValueIdx

noncomputable section

open scoped BigOperators

namespace Cert.TokenAttn

open Idealize.ShloMosaic

/-- The feature that holds coordinate `d` of head `h`. -/
def feat (h : Fin 16) (d : Fin 64) : Fin 1024 :=
  ⟨h.val * 64 + d.val, by have := h.isLt; have := d.isLt; omega⟩

/-- The head a feature belongs to … -/
def headOf (c : Fin 1024) : Fin 16 := ⟨c.val / 64, by have := c.isLt; omega⟩

/-- … and its coordinate inside that head. -/
def coordOf (c : Fin 1024) : Fin 64 := ⟨c.val % 64, Nat.mod_lt _ (by decide)⟩

theorem feat_headOf_coordOf (c : Fin 1024) : feat (headOf c) (coordOf c) = c :=
  Fin.ext (by show c.val / 64 * 64 + c.val % 64 = c.val; omega)

theorem headOf_feat (h : Fin 16) (d : Fin 64) : headOf (feat h d) = h :=
  Fin.ext (by show (h.val * 64 + d.val) / 64 = h.val; have := d.isLt; omega)

theorem coordOf_feat (h : Fin 16) (d : Fin 64) : coordOf (feat h d) = d :=
  Fin.ext (by show (h.val * 64 + d.val) % 64 = d.val; have := d.isLt; omega)

/-- The word the programs divide the scores by: 8.0. -/
abbrev eight : EReal := Ideal.ofBits .f32 0x41000000#32

/-- The word the programs start a maximum from: −∞. -/
abbrev negInf : EReal := Ideal.ofBits .f32 0xFF800000#32

/-- The affine map of a row: entry j of x·Wᵀ + b. -/
def affine (W : Fin 1024 → Fin 1024 → EReal) (b x : Fin 1024 → EReal) (j : Fin 1024) : EReal :=
  (∑ k : Fin 1024, x k * W j k) + b j

/-- How head h scores head g: the inner product of their query and key coordinates, over 8. -/
def score (qh kh : Fin 1024 → EReal) (h g : Fin 16) : EReal :=
  Ideal.div (∑ d : Fin 64, qh (feat h d) * kh (feat g d)) eight

/-- The largest of sixteen scores, taken from −∞ (and once more against −∞, as both programs do). -/
def peak (s : Fin 16 → EReal) : EReal :=
  max negInf ((Finset.univ : Finset (Fin 16)).fold max negInf s)

/-- A score's exponential, taken relative to the largest. -/
def weight (s : Fin 16 → EReal) (g : Fin 16) : EReal := Ideal.exp (s g - peak s)

/-- The soft maximum: a weight over the sum of the sixteen. -/
def share (s : Fin 16 → EReal) (g : Fin 16) : EReal := Ideal.div (weight s g) (∑ g' : Fin 16, weight s g')

/-- The heads' results side by side: feature c, in head h = c / 64 at coordinate d = c % 64, is the sum over the heads g
    of h's share for g times g's value coordinate d. -/
def blend (qh kh vh : Fin 1024 → EReal) (c : Fin 1024) : EReal :=
  ∑ g : Fin 16, share (score qh kh (headOf c)) g * vh (feat g (coordOf c))

/-- One token's output row from its three input rows. -/
def token (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal)
    (q k v : Fin 1024 → EReal) : Fin 1024 → EReal :=
  affine Wo bo (blend (affine Wq bq q) (affine Wk bk k) (affine Wv bv v))

/-! ## The arrays the rows come from -/

/-- A weight matrix [1024, 1024] by its two coordinates … -/
def mat (W : (⟨2, ![1024, 1024]⟩ : Shape).Idx → EReal) (j k : Fin 1024) : EReal := W (ValueIdx.ix2 j k)

/-- … a bias vector [1024] by its one … -/
def vec (b : (⟨1, ![1024]⟩ : Shape).Idx → EReal) (j : Fin 1024) : EReal := b (ValueIdx.ix1 j)

/-- … and row n of an array of R rows of 1024 features. -/
def rowOf {R : ℕ} (x : (⟨2, ![R, 1024]⟩ : Shape).Idx → EReal) (n : Fin R) (k : Fin 1024) : EReal := x (ValueIdx.ix2 n k)

/-- The whole result: row n of the output is the token function of rows n of the three inputs. -/
def whole (q k v : (⟨2, ![16384, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![16384, 1024]⟩ : Shape).Idx → EReal :=
  fun i => token (mat Wq) (vec bq) (mat Wk) (vec bk) (mat Wv) (vec bv) (mat Wo) (vec bo)
    (rowOf q ⟨(i 0).val, ValueIdx.idx2_lt0 i⟩) (rowOf k ⟨(i 0).val, ValueIdx.idx2_lt0 i⟩) (rowOf v ⟨(i 0).val, ValueIdx.idx2_lt0 i⟩)
    ⟨(i 1).val, ValueIdx.idx2_lt1 i⟩

end Cert.TokenAttn

end
-- ==== Proof.TileOps.lean ====
/-
  The operations of the kernel's tile of 256 tokens, each read at one index written by its coordinates.

  A tile is a [256, 1024] array: row p is a token, its 1024 features 16 heads of 64 coordinates. The three kinds of
  product the tile takes — a row against the columns of a [1024, 1024] matrix, head against head over the 64
  coordinates, weights against the heads' values over the 16 heads — are, from a zero accumulator, plain sums over
  the contracted coordinate. Viewing [256, 1024] as [256, 16, 64] puts feature 64·h + d at (h, d), and back. A
  maximum or a sum over the last axis of [256, 16, 16], kept as a column [256, 16, 1] and spread over [256, 16, 16]
  again, reads at (p, h, g) the maximum or sum of the sixteen entries (p, h, ·).
-/
import proofs.«129779_j31379031065005_1_alg».proof.Proof.Gen.KernelIdeal.Skeleton
import proofs.«129779_j31379031065005_1_alg».proof.Proof.TokenAttn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Cert.TokenAttn
open Idealize.ShloMosaic Idealize.ShloMosaic.TcCoe Idealize.ShloMosaic.ValueIdx

/-! ## A row of the tile against a [1024, 1024] matrix -/

theorem rowDot_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem rowDot_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rowDot_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rowDot_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, j) of a tile times a matrix, from zero: the sum over k of the tile's (p, k) times the matrix's (k, j). -/
theorem rowDot_apply (l : FVec Ideal S256x1024 .bf16) (r : FVec Ideal S1024x1024 .bf16) (p : Fin 256) (j : Fin 1024) :
    matmul dot_S256x1024_S1024x1024_S256x1024_1_0_0_1_n_n none l r (constant (F := Ideal) S256x1024 .f32 0x00000000#32) (ix2 p j)
      = ∑ k : Fin 1024, l (ix2 p k) * r (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p j) ((contrEquiv1 dot_S256x1024_S1024x1024_S256x1024_1_0_0_1_n_n 1024 rfl rfl).symm k) = ix2 p k := funext fun a => Fin.ext (by
    match a with
    | ⟨0, _⟩ => exact rowDot_lhs0 _ _
    | ⟨1, _⟩ => exact (rowDot_lhs1 _ _).trans hk)
  have er : dot_S256x1024_S1024x1024_S256x1024_1_0_0_1_n_n.rhsIdx (ix2 p j) ((contrEquiv1 dot_S256x1024_S1024x1024_S256x1024_1_0_0_1_n_n 1024 rfl rfl).symm k) = ix2 k j := funext fun a => Fin.ext (by
    match a with
    | ⟨0, _⟩ => exact (rowDot_rhs0 _ _).trans hk
    | ⟨1, _⟩ => exact rowDot_rhs1 _ _)
  rw [el, er]

/-! ## Head against head, over the 64 coordinates -/

theorem headDot_lhs0 (i : S256x16x16.Idx) (q : dot_S256x16x64_S256x16x64_S256x16x16_2_2_1_1_0_0.contr.Idx) :
    (dot_S256x16x64_S256x16x64_S256x16x16_2_2_1_1_0_0.lhsIdx i q 0).val = (i 0).val := by
  unfold DotDims.lhsIdx
  rw [dif_pos (show (0 : Fin S256x16x64.rank) ∈ dot_S256x16x64_S256x16x64_S256x16x16_2_2_1_1_0_0.lhsBatch by decide)]
  rfl
theorem headDot_lhs1 (i : S256x16x16.Idx) (q : dot_S256x16x64_S256x16x64_S256x16x16_2_2_1_1_0_0.contr.Idx) :
    (dot_S256x16x64_S256x16x64_S256x16x16_2_2_1_1_0_0.lhsIdx i q 1).val = (i 1).val := by
  unfold DotDims.lhsIdx
  rw [dif_neg (show ¬(1 : Fin S256x16x64.rank) ∈ dot_S256x16x64_S256x16x64_S256x16x16_2_2_1_1_0_0.lhsBatch by decide), dif_pos (show (1 : Fin S256x16x64.rank) ∈ dot_S256x16x64_S256x16x64_S256x16x16_2_2_1_1_0_0.lhsNonContracting by decide)]
  rfl
theorem headDot_lhs2 (i : S256x16x16.Idx) (q : dot_S256x16x64_S256x16x64_S256x16x16_2_2_1_1_0_0.contr.Idx) :
    (dot_S256x16x64_S256x16x64_S256x16x16_2_2_1_1_0_0.lhsIdx i q 2).val = (q ⟨0, by decide⟩).val :=
  dot_S256x16x64_S256x16x64_S256x16x16_2_2_1_1_0_0.lhsIdx_val_of_single rfl i q
theorem headDot_rhs0 (i : S256x16x16.Idx) (q : dot_S256x16x64_S256x16x64_S256x16x16_2_2_1_1_0_0.contr.Idx) :
    (dot_S256x16x64_S256x16x64_S256x16x16_2_2_1_1_0_0.rhsIdx i q 0).val = (i 0).val := by
  unfold DotDims.rhsIdx
  rw [dif_pos (show (0 : Fin S256x16x64.rank) ∈ dot_S256x16x64_S256x16x64_S256x16x16_2_2_1_1_0_0.rhsBatch by decide)]
  rfl
theorem headDot_rhs1 (i : S256x16x16.Idx) (q : dot_S256x16x64_S256x16x64_S256x16x16_2_2_1_1_0_0.contr.Idx) :
    (dot_S256x16x64_S256x16x64_S256x16x16_2_2_1_1_0_0.rhsIdx i q 1).val = (i 2).val := by
  unfold DotDims.rhsIdx
  rw [dif_neg (show ¬(1 : Fin S256x16x64.rank) ∈ dot_S256x16x64_S256x16x64_S256x16x16_2_2_1_1_0_0.rhsBatch by decide), dif_pos (show (1 : Fin S256x16x64.rank) ∈ dot_S256x16x64_S256x16x64_S256x16x16_2_2_1_1_0_0.rhsNonContracting by decide)]
  rfl
theorem headDot_rhs2 (i : S256x16x16.Idx) (q : dot_S256x16x64_S256x16x64_S256x16x16_2_2_1_1_0_0.contr.Idx) :
    (dot_S256x16x64_S256x16x64_S256x16x16_2_2_1_1_0_0.rhsIdx i q 2).val = (q ⟨0, by decide⟩).val :=
  dot_S256x16x64_S256x16x64_S256x16x16_2_2_1_1_0_0.rhsIdx_val_of_single rfl i q

/-- Entry (p, h, g) of the heads' products, from zero: the sum over d of (p, h, d) times (p, g, d). -/
theorem headDot_apply (a b : FVec Ideal S256x16x64 .f32) (p : Fin 256) (h g : Fin 16) :
    matmul dot_S256x16x64_S256x16x64_S256x16x16_2_2_1_1_0_0 none a b (constant (F := Ideal) S256x16x16 .f32 0x00000000#32) (ix3 p h g)
      = ∑ d : Fin 64, a (ix3 p h d) * b (ix3 p g d) := by
  simp only [matmul]
  rw [Ideal.matmul_constant_zero_apply, ← Equiv.sum_comp (contrEquiv1 dot_S256x16x64_S256x16x64_S256x16x16_2_2_1_1_0_0 64 rfl rfl).symm]
  refine Finset.sum_congr rfl fun k _ => ?_
  have hk := contrEquiv1_symm_val dot_S256x16x64_S256x16x64_S256x16x16_2_2_1_1_0_0 64 rfl rfl k
  have el : dot_S256x16x64_S256x16x64_S256x16x16_2_2_1_1_0_0.lhsIdx (ix3 p h g) ((contrEquiv1 dot_S256x16x64_S256x16x64_S256x16x16_2_2_1_1_0_0 64 rfl rfl).symm k) = ix3 p h k := funext fun a => Fin.ext (by
    match a with
    | ⟨0, _⟩ => exact headDot_lhs0 _ _
    | ⟨1, _⟩ => exact headDot_lhs1 _ _
    | ⟨2, _⟩ => exact (headDot_lhs2 _ _).trans hk)
  have er : dot_S256x16x64_S256x16x64_S256x16x16_2_2_1_1_0_0.rhsIdx (ix3 p h g) ((contrEquiv1 dot_S256x16x64_S256x16x64_S256x16x16_2_2_1_1_0_0 64 rfl rfl).symm k) = ix3 p g k := funext fun a => Fin.ext (by
    match a with
    | ⟨0, _⟩ => exact headDot_rhs0 _ _
    | ⟨1, _⟩ => exact headDot_rhs1 _ _
    | ⟨2, _⟩ => exact (headDot_rhs2 _ _).trans hk)
  rw [el, er]

/-! ## Weights against the heads' values, over the 16 heads -/

theorem mixDot_lhs0 (i : S256x16x64.Idx) (q : dot_S256x16x16_S256x16x64_S256x16x64_2_1_1_2_0_0.contr.Idx) :
    (dot_S256x16x16_S256x16x64_S256x16x64_2_1_1_2_0_0.lhsIdx i q 0).val = (i 0).val := by
  unfold DotDims.lhsIdx
  rw [dif_pos (show (0 : Fin S256x16x16.rank) ∈ dot_S256x16x16_S256x16x64_S256x16x64_2_1_1_2_0_0.lhsBatch by decide)]
  rfl
theorem mixDot_lhs1 (i : S256x16x64.Idx) (q : dot_S256x16x16_S256x16x64_S256x16x64_2_1_1_2_0_0.contr.Idx) :
    (dot_S256x16x16_S256x16x64_S256x16x64_2_1_1_2_0_0.lhsIdx i q 1).val = (i 1).val := by
  unfold DotDims.lhsIdx
  rw [dif_neg (show ¬(1 : Fin S256x16x16.rank) ∈ dot_S256x16x16_S256x16x64_S256x16x64_2_1_1_2_0_0.lhsBatch by decide), dif_pos (show (1 : Fin S256x16x16.rank) ∈ dot_S256x16x16_S256x16x64_S256x16x64_2_1_1_2_0_0.lhsNonContracting by decide)]
  rfl
theorem mixDot_lhs2 (i : S256x16x64.Idx) (q : dot_S256x16x16_S256x16x64_S256x16x64_2_1_1_2_0_0.contr.Idx) :
    (dot_S256x16x16_S256x16x64_S256x16x64_2_1_1_2_0_0.lhsIdx i q 2).val = (q ⟨0, by decide⟩).val :=
  dot_S256x16x16_S256x16x64_S256x16x64_2_1_1_2_0_0.lhsIdx_val_of_single rfl i q
theorem mixDot_rhs0 (i : S256x16x64.Idx) (q : dot_S256x16x16_S256x16x64_S256x16x64_2_1_1_2_0_0.contr.Idx) :
    (dot_S256x16x16_S256x16x64_S256x16x64_2_1_1_2_0_0.rhsIdx i q 0).val = (i 0).val := by
  unfold DotDims.rhsIdx
  rw [dif_pos (show (0 : Fin S256x16x64.rank) ∈ dot_S256x16x16_S256x16x64_S256x16x64_2_1_1_2_0_0.rhsBatch by decide)]
  rfl
theorem mixDot_rhs1 (i : S256x16x64.Idx) (q : dot_S256x16x16_S256x16x64_S256x16x64_2_1_1_2_0_0.contr.Idx) :
    (dot_S256x16x16_S256x16x64_S256x16x64_2_1_1_2_0_0.rhsIdx i q 1).val = (q ⟨0, by decide⟩).val :=
  dot_S256x16x16_S256x16x64_S256x16x64_2_1_1_2_0_0.rhsIdx_val_of_single rfl i q
theorem mixDot_rhs2 (i : S256x16x64.Idx) (q : dot_S256x16x16_S256x16x64_S256x16x64_2_1_1_2_0_0.contr.Idx) :
    (dot_S256x16x16_S256x16x64_S256x16x64_2_1_1_2_0_0.rhsIdx i q 2).val = (i 2).val := by
  unfold DotDims.rhsIdx
  rw [dif_neg (show ¬(2 : Fin S256x16x64.rank) ∈ dot_S256x16x16_S256x16x64_S256x16x64_2_1_1_2_0_0.rhsBatch by decide), dif_pos (show (2 : Fin S256x16x64.rank) ∈ dot_S256x16x16_S256x16x64_S256x16x64_2_1_1_2_0_0.rhsNonContracting by decide)]
  rfl

/-- Entry (p, h, d) of the weighted values, from zero: the sum over g of the weight (p, h, g) times the value (p, g, d). -/
theorem mixDot_apply (a : FVec Ideal S256x16x16 .bf16) (b : FVec Ideal S256x16x64 .bf16) (p : Fin 256) (h : Fin 16) (d : Fin 64) :
    matmul dot_S256x16x16_S256x16x64_S256x16x64_2_1_1_2_0_0 none a b (constant (F := Ideal) S256x16x64 .f32 0x00000000#32) (ix3 p h d)
      = ∑ g : Fin 16, a (ix3 p h g) * b (ix3 p g d) := by
  simp only [matmul]
  rw [Ideal.matmul_constant_zero_apply, ← Equiv.sum_comp (contrEquiv1 dot_S256x16x16_S256x16x64_S256x16x64_2_1_1_2_0_0 16 rfl rfl).symm]
  refine Finset.sum_congr rfl fun k _ => ?_
  have hk := contrEquiv1_symm_val dot_S256x16x16_S256x16x64_S256x16x64_2_1_1_2_0_0 16 rfl rfl k
  have el : dot_S256x16x16_S256x16x64_S256x16x64_2_1_1_2_0_0.lhsIdx (ix3 p h d) ((contrEquiv1 dot_S256x16x16_S256x16x64_S256x16x64_2_1_1_2_0_0 16 rfl rfl).symm k) = ix3 p h k := funext fun a => Fin.ext (by
    match a with
    | ⟨0, _⟩ => exact mixDot_lhs0 _ _
    | ⟨1, _⟩ => exact mixDot_lhs1 _ _
    | ⟨2, _⟩ => exact (mixDot_lhs2 _ _).trans hk)
  have er : dot_S256x16x16_S256x16x64_S256x16x64_2_1_1_2_0_0.rhsIdx (ix3 p h d) ((contrEquiv1 dot_S256x16x16_S256x16x64_S256x16x64_2_1_1_2_0_0 16 rfl rfl).symm k) = ix3 p k d := funext fun a => Fin.ext (by
    match a with
    | ⟨0, _⟩ => exact mixDot_rhs0 _ _
    | ⟨1, _⟩ => exact (mixDot_rhs1 _ _).trans hk
    | ⟨2, _⟩ => exact mixDot_rhs2 _ _)
  rw [el, er]

/-! ## The two views of a tile -/

variable {α : Type}

/-- [256, 1024] viewed as [256, 16, 64]: (p, h, d) reads feature 64·h + d of row p. -/
theorem heads_apply (x : S256x1024.Idx → α) (hc : S256x1024.ShapeCasts S256x16x64) (p : Fin 256) (h : Fin 16) (d : Fin 64) :
    shapeCast S256x16x64 x hc (ix3 p h d) = x (ix2 p (feat h d)) :=
  shapeCast_apply x hc _ _ (by
    rw [Shape.rowMajor_val_two, Shape.rowMajor_val_three]
    show p.val * 1024 + (h.val * 64 + d.val) = (p.val * 16 + h.val) * 64 + d.val
    omega)

/-- [256, 16, 64] viewed as [256, 1024]: feature c of row p reads (p, c / 64, c % 64). -/
theorem flat_apply (y : S256x16x64.Idx → α) (hc : S256x16x64.ShapeCasts S256x1024) (p : Fin 256) (c : Fin 1024) :
    shapeCast S256x1024 y hc (ix2 p c) = y (ix3 p (headOf c) (coordOf c)) :=
  shapeCast_apply y hc _ _ (by
    rw [Shape.rowMajor_val_two, Shape.rowMajor_val_three]
    show (p.val * 16 + c.val / 64) * 64 + c.val % 64 = p.val * 1024 + c.val
    omega)

/-- A [256, 16] array kept as a column [256, 16, 1] and spread over [256, 16, 16] reads, at (p, h, g), the array at (p, h). -/
theorem spread_apply (y : S256x16.Idx → α) (hc : S256x16.ShapeCasts S256x16x1) (hb : S256x16x1.Broadcasts S256x16x16)
    (p : Fin 256) (h g : Fin 16) :
    broadcastTo S256x16x16 (shapeCast S256x16x1 y hc) hb (ix3 p h g) = y (ix2 p h) := by
  refine (broadcastTo_apply (shapeCast S256x16x1 y hc) hb (ix3 p h g) (ix3 p h (0 : Fin 1)) fun ax => ?_).trans ?_
  · match ax with
    | ⟨0, _⟩ => rfl
    | ⟨1, _⟩ => rfl
    | ⟨2, _⟩ => rfl
  · exact shapeCast_apply y hc _ _ (by
      rw [Shape.rowMajor_val_two, Shape.rowMajor_val_three]
      show p.val * 16 + h.val = (p.val * 16 + h.val) * 1 + 0
      omega)

/-! ## The last axis of [256, 16, 16] reduced -/

/-- Over (p, h), the index a last-axis reduction inserts coordinate g into is (p, h, g). -/
theorem lift_last (hr : S256x16x16.Reduces [2] S256x16) (p : Fin 256) (h g : Fin 16) :
    hr.lift (ix2 p h) g = ix3 p h g :=
  funext fun c => Fin.ext (match c with | ⟨0, _⟩ => rfl | ⟨1, _⟩ => rfl | ⟨2, _⟩ => rfl)

/-- The sum over the last axis, at (p, h): the sum of the sixteen entries (p, h, ·). -/
theorem sumLast_apply (src : FVec Ideal S256x16x16 .f32) (hr : S256x16x16.Reduces [2] S256x16)
    (hφ : FKind.Formats .f32) (hacc : (0x00000000#32 : BitVec 32) = FKind.add.neutral .f32 hφ) (p : Fin 256) (h : Fin 16) :
    multiReduction .add [2] S256x16 src 0x00000000#32 hr hφ hacc (ix2 p h) = ∑ g : Fin 16, src (ix3 p h g) :=
  (Ideal.multiReduction_add_single src _ hr hφ hacc (ix2 p h)).trans
    (Finset.sum_congr rfl fun g _ => congrArg src (lift_last hr p h g))

/-- The maximum over the last axis from −∞, at (p, h): the maximum of the sixteen entries (p, h, ·), from −∞. -/
theorem maxLast_apply (src : FVec Ideal S256x16x16 .f32) (hr : S256x16x16.Reduces [2] S256x16)
    (hφ : FKind.Formats .f32) (hacc : (0xFF800000#32 : BitVec 32) = FKind.maximumf.neutral .f32 hφ) (p : Fin 256) (h : Fin 16) :
    multiReduction .maximumf [2] S256x16 src 0xFF800000#32 hr hφ hacc (ix2 p h)
      = (Finset.univ : Finset (Fin 16)).fold max negInf (fun g => src (ix3 p h g)) := by
  refine (Ideal.multiReduction_maximumf_single src _ hr hφ hacc (ix2 p h)).trans ?_
  show (Finset.univ : Finset (Fin 16)).fold max (Ideal.ofBits .f32 0xFF800000#32) (src ∘ hr.lift (ix2 p h)) = _
  exact congrArg (fun f : Fin 16 → EReal => (Finset.univ : Finset (Fin 16)).fold max negInf f)
    (funext fun g => congrArg src (lift_last hr p h g))

end Cert.KernelIdeal.Tile

end
-- ==== Proof.TileRows.lean ====
/-
  What the kernel's body computes for one tile of 256 tokens, read at one entry: entry (p, j) of the value it stores
  is the token function (Proof/TokenAttn.lean) of rows p of the three input tiles, at feature j.

  The body's arithmetic comes in four named terms: the projected values viewed by heads, the scaled scores, the
  scores' row maxima, and the stored result from those three. Each is first restated over two small tile functions
  — a tile's affine map, and the soft maximum over the last axis — and then read at an index, an operation at a time.
  The weight matrices reach the tile already transposed (entry (k, j) of the tile's matrix is entry (j, k) of the
  map's matrix), and the biases as one-row matrices.
-/
import proofs.«129779_j31379031065005_1_alg».proof.Proof.TileOps

noncomputable section

open scoped BigOperators

namespace Cert.KernelIdeal.Tile

open Cert.KernelIdeal Cert.KernelIdeal.Gen Cert.TokenAttn
open Idealize.ShloMosaic Idealize.ShloMosaic.TcCoe Idealize.ShloMosaic.ValueIdx

/-- A [1024, 1024] matrix read transposed … -/
def matT (w : S1024x1024.Idx → EReal) (j k : Fin 1024) : EReal := w (ix2 k j)

/-- … and a one-row matrix [1, 1024] read as a vector. -/
def vec1 (b : S1x1024.Idx → EReal) (j : Fin 1024) : EReal := b (ix2 (0 : Fin 1) j)

section Terms
variable {F : FTy → Type} [FloatOps F]

/-- The affine map of a tile as the body writes it: the tile times the (transposed) matrix from zero, plus the bias row on every row. -/
def projB (l : FVec F S256x1024 .bf16) (w : Vec F S1024x1024 .bf16) (b : Vec F S1x1024 .f32) : FVec F S256x1024 .f32 :=
  addf (matmul dot_S256x1024_S1024x1024_S256x1024_1_0_0_1_n_n none l (shapeCast S1024x1024 w shapeCasts_S1024x1024_S1024x1024) (constant S256x1024 .f32 0x00000000#32))
    (broadcastTo S256x1024 (shapeCast S1x1024 b shapeCasts_S1x1024_S1x1024) broadcasts_S1x1024_S256x1024)

/-- The same of a tile that arrives in the wider format and is narrowed first. -/
def proj (x : Vec F S256x1024 .f32) (w : Vec F S1024x1024 .bf16) (b : Vec F S1x1024 .f32) : FVec F S256x1024 .f32 :=
  projB (truncf .bf16 x bitsLt_bf16_f32) w b

/-- The exponentials of the scores, each relative to its row's maximum (taken once more against the scalar c). -/
def expTile (s : FVec F S256x16x16 .f32) (mx : FVec F S256x16 .f32) (c : F .f32) : FVec F S256x16x16 .f32 :=
  exp (subf s (broadcastTo S256x16x16 (shapeCast S256x16x1 (maximumf (broadcast S256x16 c) mx) shapeCasts_S256x16_S256x16x1) broadcasts_S256x16x1_S256x16x16))

/-- The soft maximum over the last axis: each exponential over its row's sum. -/
def shareTile (s : FVec F S256x16x16 .f32) (mx : FVec F S256x16 .f32) (c : F .f32) : FVec F S256x16x16 .f32 :=
  divf (expTile s mx c)
    (broadcastTo S256x16x16 (shapeCast S256x16x1 (multiReduction .add [2] S256x16 (expTile s mx c) 0x00000000#32 reduces_S256x16x16_S256x16 (.inl rfl) rfl) shapeCasts_S256x16_S256x16x1) broadcasts_S256x16x1_S256x16x16)

/-- The projected values, viewed by heads. -/
theorem values_eq (v4 : Vec F S256x1024 .f32) (v20 : Vec F S1024x1024 .bf16) (v23 : Vec F S1x1024 .f32) :
    k0_pay2 v4 v20 v23 = shapeCast S256x16x64 (proj v4 v20 v23) shapeCasts_S256x1024_S256x16x64 := rfl

/-- The scores: the projected queries against the projected keys, head against head, over 8. -/
theorem scores_eq (v0 v2 : Vec F S256x1024 .f32) (v6 : Vec F S1024x1024 .bf16) (v9 : Vec F S1x1024 .f32) (v13 : Vec F S1024x1024 .bf16) (v16 : Vec F S1x1024 .f32) :
    k0_pay3 v0 v2 v6 v9 v13 v16
      = divf (matmul dot_S256x16x64_S256x16x64_S256x16x16_2_2_1_1_0_0 none (shapeCast S256x16x64 (proj v0 v6 v9) shapeCasts_S256x1024_S256x16x64)
            (shapeCast S256x16x64 (proj v2 v13 v16) shapeCasts_S256x1024_S256x16x64) (constant S256x16x16 .f32 0x00000000#32))
          (broadcast S256x16x16 (Scalar.ofBits .f32 0x41000000#32)) := rfl

/-- The scores' maxima over the last axis, from −∞. -/
theorem maxima_eq (v0 v2 : Vec F S256x1024 .f32) (v6 : Vec F S1024x1024 .bf16) (v9 : Vec F S1x1024 .f32) (v13 : Vec F S1024x1024 .bf16) (v16 : Vec F S1x1024 .f32) :
    k0_pay4 v0 v2 v6 v9 v13 v16
      = multiReduction .maximumf [2] S256x16 (k0_pay3 v0 v2 v6 v9 v13 v16) 0xFF800000#32 reduces_S256x16x16_S256x16 (.inl rfl) rfl := rfl

/-- The stored value: the shares against the values over the heads, laid flat, through the last affine map. -/
theorem stored_eq (v29 : FVec F S256x16x64 .f32) (v32 : FVec F S256x16x16 .f32) (v33 : FVec F S256x16 .f32) (c : F .f32)
    (v49 : Vec F S1024x1024 .bf16) (v52 : Vec F S1x1024 .f32) :
    k0_pay1 v29 v32 v33 c v49 v52
      = projB (truncf .bf16 (shapeCast S256x1024 (matmul dot_S256x16x16_S256x16x64_S256x16x64_2_1_1_2_0_0 none (truncf .bf16 (shareTile v32 v33 c) bitsLt_bf16_f32) (truncf .bf16 v29 bitsLt_bf16_f32) (constant S256x16x64 .f32 0x00000000#32)) shapeCasts_S256x16x64_S256x1024) bitsLt_bf16_f32)
          v49 v52 := rfl

end Terms

/-! ## Read at an index, over the extended reals -/

/-- Entry (p, j) of a tile's affine map is the affine map of row p, at j. -/
theorem projB_apply (l : FVec Ideal S256x1024 .bf16) (w : Vec Ideal S1024x1024 .bf16) (b : Vec Ideal S1x1024 .f32) (p : Fin 256) (j : Fin 1024) :
    projB (F := Ideal) l w b (ix2 p j) = affine (matT w) (vec1 b) (fun k => l (ix2 p k)) j := by
  show matmul dot_S256x1024_S1024x1024_S256x1024_1_0_0_1_n_n none l (shapeCast S1024x1024 w shapeCasts_S1024x1024_S1024x1024) (constant (F := Ideal) S256x1024 .f32 0x00000000#32) (ix2 p j)
      + broadcastTo S256x1024 (shapeCast S1x1024 b shapeCasts_S1x1024_S1x1024) broadcasts_S1x1024_S256x1024 (ix2 p j) = _
  rw [rowDot_apply, shapeCast_self, shapeCast_self, broadcastTo_1b_ab_apply]
  rfl

/-- Narrowing changes nothing over the extended reals: the same of a tile in the wider format. -/
theorem proj_apply (x : Vec Ideal S256x1024 .f32) (w : Vec Ideal S1024x1024 .bf16) (b : Vec Ideal S1x1024 .f32) (p : Fin 256) (j : Fin 1024) :
    proj (F := Ideal) x w b (ix2 p j) = affine (matT w) (vec1 b) (rowOf x p) j :=
  projB_apply (truncf .bf16 x bitsLt_bf16_f32) w b p j

/-- Entry (p, h, g) of the exponentials: the exponential of the score less the larger of c and the row's maximum. -/
theorem expTile_apply (s : FVec Ideal S256x16x16 .f32) (mx : FVec Ideal S256x16 .f32) (c : Ideal .f32) (p : Fin 256) (h g : Fin 16) :
    expTile (F := Ideal) s mx c (ix3 p h g) = Ideal.exp (s (ix3 p h g) - max c (mx (ix2 p h))) := by
  show Ideal.exp (s (ix3 p h g) - broadcastTo S256x16x16 (shapeCast S256x16x1 (maximumf (broadcast S256x16 c) mx) shapeCasts_S256x16_S256x16x1) broadcasts_S256x16x1_S256x16x16 (ix3 p h g)) = _
  rw [spread_apply]
  rfl

/-- Entry (p, h, g) of the soft maximum: the exponential there over the sum of the sixteen of its row. -/
theorem shareTile_apply (s : FVec Ideal S256x16x16 .f32) (mx : FVec Ideal S256x16 .f32) (c : Ideal .f32) (p : Fin 256) (h g : Fin 16) :
    shareTile (F := Ideal) s mx c (ix3 p h g)
      = Ideal.div (expTile (F := Ideal) s mx c (ix3 p h g)) (∑ g' : Fin 16, expTile (F := Ideal) s mx c (ix3 p h g')) := by
  show Ideal.div (expTile (F := Ideal) s mx c (ix3 p h g))
      (broadcastTo S256x16x16 (shapeCast S256x16x1 (multiReduction .add [2] S256x16 (expTile (F := Ideal) s mx c) 0x00000000#32 reduces_S256x16x16_S256x16 (.inl rfl) rfl) shapeCasts_S256x16_S256x16x1) broadcasts_S256x16x1_S256x16x16 (ix3 p h g)) = _
  rw [spread_apply]
  exact congrArg (Ideal.div (expTile (F := Ideal) s mx c (ix3 p h g)))
    (sumLast_apply (expTile (F := Ideal) s mx c) reduces_S256x16x16_S256x16 (.inl rfl) rfl p h)

/-! ## The body's four terms -/

/-- The projected values at (p, g, d): the affine map of row p of the value tile, at feature 64·g + d. -/
theorem values_apply (v4 : Vec Ideal S256x1024 .f32) (v20 : Vec Ideal S1024x1024 .bf16) (v23 : Vec Ideal S1x1024 .f32)
    (p : Fin 256) (g : Fin 16) (d : Fin 64) :
    k0_pay2 (F := Ideal) v4 v20 v23 (ix3 p g d) = affine (matT v20) (vec1 v23) (rowOf v4 p) (feat g d) := by
  rw [values_eq, heads_apply, proj_apply]

/-- The scores at (p, h, g): how head h of token p scores head g. -/
theorem scores_apply (v0 v2 : Vec Ideal S256x1024 .f32) (v6 : Vec Ideal S1024x1024 .bf16) (v9 : Vec Ideal S1x1024 .f32)
    (v13 : Vec Ideal S1024x1024 .bf16) (v16 : Vec Ideal S1x1024 .f32) (p : Fin 256) (h g : Fin 16) :
    k0_pay3 (F := Ideal) v0 v2 v6 v9 v13 v16 (ix3 p h g)
      = score (affine (matT v6) (vec1 v9) (rowOf v0 p)) (affine (matT v13) (vec1 v16) (rowOf v2 p)) h g := by
  rw [scores_eq]
  show Ideal.div (matmul dot_S256x16x64_S256x16x64_S256x16x16_2_2_1_1_0_0 none (shapeCast S256x16x64 (proj (F := Ideal) v0 v6 v9) shapeCasts_S256x1024_S256x16x64)
      (shapeCast S256x16x64 (proj (F := Ideal) v2 v13 v16) shapeCasts_S256x1024_S256x16x64) (constant (F := Ideal) S256x16x16 .f32 0x00000000#32) (ix3 p h g)) eight = _
  rw [headDot_apply]
  unfold score
  refine congrArg (fun s => Ideal.div s eight) (Finset.sum_congr rfl fun d _ => ?_)
  rw [heads_apply, heads_apply, proj_apply, proj_apply]

/-- The maxima at (p, h): the largest of head h's sixteen scores, from −∞. -/
theorem maxima_apply (v0 v2 : Vec Ideal S256x1024 .f32) (v6 : Vec Ideal S1024x1024 .bf16) (v9 : Vec Ideal S1x1024 .f32)
    (v13 : Vec Ideal S1024x1024 .bf16) (v16 : Vec Ideal S1x1024 .f32) (p : Fin 256) (h : Fin 16) :
    k0_pay4 (F := Ideal) v0 v2 v6 v9 v13 v16 (ix2 p h)
      = (Finset.univ : Finset (Fin 16)).fold max negInf
          (score (affine (matT v6) (vec1 v9) (rowOf v0 p)) (affine (matT v13) (vec1 v16) (rowOf v2 p)) h) := by
  rw [maxima_eq]
  refine (maxLast_apply _ reduces_S256x16x16_S256x16 (.inl rfl) rfl p h).trans ?_
  exact congrArg (fun f : Fin 16 → EReal => (Finset.univ : Finset (Fin 16)).fold max negInf f)
    (funext fun g => scores_apply v0 v2 v6 v9 v13 v16 p h g)

section Row
/-! For one token p: the scores, their maxima and the values of row p given as functions of the row's projections. -/
variable (v29 : FVec Ideal S256x16x64 .f32) (v32 : FVec Ideal S256x16x16 .f32) (v33 : FVec Ideal S256x16 .f32)
  (qh kh vh : Fin 1024 → EReal) (p : Fin 256)
  (hv : ∀ g d, v29 (ix3 p g d) = vh (feat g d))
  (hs : ∀ h g, v32 (ix3 p h g) = score qh kh h g)
  (hm : ∀ h, v33 (ix2 p h) = (Finset.univ : Finset (Fin 16)).fold max negInf (score qh kh h))

include hs hm in
/-- The exponentials of row p are the weights of its scores. -/
theorem expTile_row (h g : Fin 16) : expTile (F := Ideal) v32 v33 negInf (ix3 p h g) = weight (score qh kh h) g := by
  rw [expTile_apply, hs, hm]
  rfl

include hs hm in
/-- The soft maximum of row p is the shares of its scores. -/
theorem shareTile_row (h g : Fin 16) : shareTile (F := Ideal) v32 v33 negInf (ix3 p h g) = share (score qh kh h) g := by
  rw [shareTile_apply, expTile_row v32 v33 qh kh p hs hm h g]
  unfold share
  exact congrArg (Ideal.div (weight (score qh kh h) g)) (Finset.sum_congr rfl fun g' _ => expTile_row v32 v33 qh kh p hs hm h g')

include hv hs hm in
/-- The stored value at (p, j): the last affine map of the blended heads of token p. -/
theorem stored_apply (v49 : Vec Ideal S1024x1024 .bf16) (v52 : Vec Ideal S1x1024 .f32) (j : Fin 1024) :
    k0_pay1 (F := Ideal) v29 v32 v33 negInf v49 v52 (ix2 p j) = affine (matT v49) (vec1 v52) (blend qh kh vh) j := by
  rw [stored_eq, projB_apply]
  refine congrArg (fun x => affine (matT v49) (vec1 v52) x j) (funext fun c => ?_)
  show shapeCast S256x1024 (matmul dot_S256x16x16_S256x16x64_S256x16x64_2_1_1_2_0_0 none (truncf .bf16 (shareTile (F := Ideal) v32 v33 negInf) bitsLt_bf16_f32) (truncf .bf16 v29 bitsLt_bf16_f32) (constant (F := Ideal) S256x16x64 .f32 0x00000000#32)) shapeCasts_S256x16x64_S256x1024 (ix2 p c) = _
  rw [flat_apply, mixDot_apply]
  unfold blend
  refine Finset.sum_congr rfl fun g _ => ?_
  show shareTile (F := Ideal) v32 v33 negInf (ix3 p (headOf c) g) * v29 (ix3 p g (coordOf c)) = _
  rw [hv, shareTile_row v32 v33 qh kh p hs hm]

end Row

/-- Entry (p, j) of what the body stores is the token function of rows p of the three input tiles, at feature j. -/
theorem tile_apply (x0 x1 x2 : Vec Ideal S256x1024 .f32) (x3 : Vec Ideal S1024x1024 .bf16) (x4 : Vec Ideal S1x1024 .f32)
    (x5 : Vec Ideal S1024x1024 .bf16) (x6 : Vec Ideal S1x1024 .f32) (x7 : Vec Ideal S1024x1024 .bf16) (x8 : Vec Ideal S1x1024 .f32)
    (x9 : Vec Ideal S1024x1024 .bf16) (x10 : Vec Ideal S1x1024 .f32) (p : Fin 256) (j : Fin 1024) :
    k0_pay1 (F := Ideal) (k0_pay2 x2 x7 x8) (k0_pay3 x0 x1 x3 x4 x5 x6) (k0_pay4 x0 x1 x3 x4 x5 x6) (Scalar.ofBits .f32 0xFF800000#32) x9 x10 (ix2 p j)
      = token (matT x3) (vec1 x4) (matT x5) (vec1 x6) (matT x7) (vec1 x8) (matT x9) (vec1 x10) (rowOf x0 p) (rowOf x1 p) (rowOf x2 p) j :=
  stored_apply (k0_pay2 x2 x7 x8) (k0_pay3 x0 x1 x3 x4 x5 x6) (k0_pay4 x0 x1 x3 x4 x5 x6)
    (affine (matT x3) (vec1 x4) (rowOf x0 p)) (affine (matT x5) (vec1 x6) (rowOf x1 p)) (affine (matT x7) (vec1 x8) (rowOf x2 p)) p
    (fun g d => values_apply x2 x7 x8 p g d) (fun h g => scores_apply x0 x1 x3 x4 x5 x6 p h g)
    (fun h => maxima_apply x0 x1 x3 x4 x5 x6 p h) x9 x10 j

end Cert.KernelIdeal.Tile

end
-- ==== Proof.TileArray.lean ====
/-
  From tiles to the whole array: after the kernel's run its result array holds, at row n and feature j, the token
  function of rows n of the three inputs.

  The grid has 64 points; point t works on tokens 256·t … 256·t + 255. Its three input tiles are those rows of the
  query, key and value arrays; the four weight tiles are the whole matrices as the host code before the call left them
  — each weight matrix transposed, the narrowing of format changing nothing over the extended reals — and the four bias
  tiles are the bias vectors as one-row matrices. The body stores, at (p, j) of its output tile, the token function of
  rows p of its input tiles (Proof/TileRows.lean), which is the token function of rows 256·t + p of the arrays; the tile
  is written back to rows 256·t … 256·t + 255 of the result; and the 64 tiles cover the result's 16384 rows.
-/
import proofs.«129779_j31379031065005_1_alg».proof.Proof.Gen.KernelIdeal.Value
import proofs.«129779_j31379031065005_1_alg».proof.Proof.TileRows
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value Cert.KernelIdeal.Tile Cert.TokenAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 64 points. -/
theorem point_lt (t : Fin cfg0.N) : t.val < 64 := lt_of_lt_of_eq t.isLt N_0

/-- The first token of point t's tile plus p: token 256·t + p. -/
def tokenAt (t : Fin cfg0.N) (p : Fin 256) : Fin 16384 :=
  ⟨256 * t.val + p.val, by have := point_lt t; have := p.isLt; omega⟩

/-- The index maps over the grid: the token tiles (inputs and result) sit at block (t, 0), the weights and biases at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## The tiles of a point, each at its literal type -/

abbrev qTile (c : Dev nD) (t : Fin cfg0.N) : Vec Ideal S256x1024 .f32 := iblk m c 0 t
abbrev kTile (c : Dev nD) (t : Fin cfg0.N) : Vec Ideal S256x1024 .f32 := iblk m c 1 t
abbrev vTile (c : Dev nD) (t : Fin cfg0.N) : Vec Ideal S256x1024 .f32 := iblk m c 2 t
abbrev wqTile (c : Dev nD) (t : Fin cfg0.N) : Vec Ideal S1024x1024 .bf16 := iblk m c 3 t
abbrev bqTile (c : Dev nD) (t : Fin cfg0.N) : Vec Ideal S1x1024 .f32 := iblk m c 4 t
abbrev wkTile (c : Dev nD) (t : Fin cfg0.N) : Vec Ideal S1024x1024 .bf16 := iblk m c 5 t
abbrev bkTile (c : Dev nD) (t : Fin cfg0.N) : Vec Ideal S1x1024 .f32 := iblk m c 6 t
abbrev wvTile (c : Dev nD) (t : Fin cfg0.N) : Vec Ideal S1024x1024 .bf16 := iblk m c 7 t
abbrev bvTile (c : Dev nD) (t : Fin cfg0.N) : Vec Ideal S1x1024 .f32 := iblk m c 8 t
abbrev woTile (c : Dev nD) (t : Fin cfg0.N) : Vec Ideal S1024x1024 .bf16 := iblk m c 9 t
abbrev boTile (c : Dev nD) (t : Fin cfg0.N) : Vec Ideal S1x1024 .f32 := iblk m c 10 t

/-- The argument arrays as launched, each at its literal type. -/
abbrev arg (c : Dev nD) (b : Ref sig .tc) := m ((c : Thread nD τ).loc b)

/-! ## The token tiles are rows of the arrays -/

/-- Row p of point t's query tile is row 256·t + p of the query array. -/
theorem qTile_row (c : Dev nD) (t : Fin cfg0.N) (p : Fin 256) :
    rowOf (qTile m c t) p = rowOf (arg m c main_arg0 : S16384x1024.Idx → EReal) (tokenAt t p) := by
  funext k
  obtain ⟨⟨e0, e1⟩, -⟩ := idx_facts t
  show iblk m c 0 t (ix2 p k) = _
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

/-- Row p of point t's key tile is row 256·t + p of the key array. -/
theorem kTile_row (c : Dev nD) (t : Fin cfg0.N) (p : Fin 256) :
    rowOf (kTile m c t) p = rowOf (arg m c main_arg1 : S16384x1024.Idx → EReal) (tokenAt t p) := by
  funext k
  obtain ⟨-, ⟨e0, e1⟩, -⟩ := idx_facts t
  show iblk m c 1 t (ix2 p k) = _
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

/-- Row p of point t's value tile is row 256·t + p of the value array. -/
theorem vTile_row (c : Dev nD) (t : Fin cfg0.N) (p : Fin 256) :
    rowOf (vTile m c t) p = rowOf (arg m c main_arg2 : S16384x1024.Idx → EReal) (tokenAt t p) := by
  funext k
  obtain ⟨-, -, ⟨e0, e1⟩, -⟩ := idx_facts t
  show iblk m c 2 t (ix2 p k) = _
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-! ## The weight tiles are the matrices transposed, the bias tiles the vectors as one row -/

/-- What the host code leaves for the query map's matrix: the argument transposed, then narrowed. -/
theorem V_wq (c : Dev nD) : (V m c main_v1 : FVec Ideal S1024x1024 .bf16)
    = truncf (F := Ideal) .bf16 (transpose S1024x1024 [1, 0] (arg m c main_arg3 : FVec Ideal S1024x1024 .f32) transposes_S1024x1024_S1024x1024_1_0) bitsLt_bf16_f32 := by
  dsimp only [Gen.V, Gen.hostOps0]; after_results

/-- Point t's query-map tile, read transposed, is the query map's matrix. -/
theorem wqTile_mat (c : Dev nD) (t : Fin cfg0.N) : matT (wqTile m c t) = mat (arg m c main_arg3 : S1024x1024.Idx → EReal) := by
  funext j k
  obtain ⟨-, -, -, ⟨e0, e1⟩, -⟩ := idx_facts t
  show iblk m c 3 t (ix2 k j) = (arg m c main_arg3 : S1024x1024.Idx → EReal) (ix2 j k)
  unfold iblk
  rw [View.read_apply]
  show (V m c main_v1 : FVec Ideal S1024x1024 .bf16) _ = _
  rw [V_wq]
  refine transpose_apply [1, 0] _ transposes_S1024x1024_S1024x1024_1_0 _ (ix2 j k) fun b => ?_
  match b with
  | ⟨0, _⟩ => show k.val = win0_3.index t (0 : Fin 2) * 1024 + 1 * k.val; omega
  | ⟨1, _⟩ => show j.val = win0_3.index t (1 : Fin 2) * 1024 + 1 * j.val; omega

/-- What the host code leaves for the query map's bias: the argument as a one-row matrix. -/
theorem V_bq (c : Dev nD) : (V m c main_v8 : FVec Ideal S1x1024 .f32)
    = shapeCast S1x1024 (arg m c main_arg4 : FVec Ideal S1024 .f32) shapeCasts_S1024_S1x1024 := by
  dsimp only [Gen.V, Gen.hostOps0]; after_results; rfl

/-- Point t's query-bias tile, read as a vector, is the query map's bias. -/
theorem bqTile_vec (c : Dev nD) (t : Fin cfg0.N) : vec1 (bqTile m c t) = vec (arg m c main_arg4 : S1024.Idx → EReal) := by
  funext j
  obtain ⟨-, -, -, -, ⟨e0, e1⟩, -⟩ := idx_facts t
  show iblk m c 4 t (ix2 (0 : Fin 1) j) = (arg m c main_arg4 : S1024.Idx → EReal) (ix1 j)
  unfold iblk
  rw [View.read_apply]
  show (V m c main_v8 : FVec Ideal S1x1024 .f32) _ = _
  rw [V_bq]
  refine shapeCast_apply _ shapeCasts_S1024_S1x1024 _ (ix1 j) ?_
  rw [Shape.rowMajor_val_two, Shape.rowMajor_val_one]
  show j.val = (win0_4.index t (0 : Fin 2) * 1 + 1 * 0) * 1024 + (win0_4.index t (1 : Fin 2) * 1024 + 1 * j.val)
  omega

/-- What the host code leaves for the key map's matrix: the argument transposed, then narrowed. -/
theorem V_wk (c : Dev nD) : (V m c main_v3 : FVec Ideal S1024x1024 .bf16)
    = truncf (F := Ideal) .bf16 (transpose S1024x1024 [1, 0] (arg m c main_arg5 : FVec Ideal S1024x1024 .f32) transposes_S1024x1024_S1024x1024_1_0) bitsLt_bf16_f32 := by
  dsimp only [Gen.V, Gen.hostOps0]; after_results

/-- Point t's key-map tile, read transposed, is the key map's matrix. -/
theorem wkTile_mat (c : Dev nD) (t : Fin cfg0.N) : matT (wkTile m c t) = mat (arg m c main_arg5 : S1024x1024.Idx → EReal) := by
  funext j k
  obtain ⟨-, -, -, -, -, ⟨e0, e1⟩, -⟩ := idx_facts t
  show iblk m c 5 t (ix2 k j) = (arg m c main_arg5 : S1024x1024.Idx → EReal) (ix2 j k)
  unfold iblk
  rw [View.read_apply]
  show (V m c main_v3 : FVec Ideal S1024x1024 .bf16) _ = _
  rw [V_wk]
  refine transpose_apply [1, 0] _ transposes_S1024x1024_S1024x1024_1_0 _ (ix2 j k) fun b => ?_
  match b with
  | ⟨0, _⟩ => show k.val = win0_5.index t (0 : Fin 2) * 1024 + 1 * k.val; omega
  | ⟨1, _⟩ => show j.val = win0_5.index t (1 : Fin 2) * 1024 + 1 * j.val; omega

/-- What the host code leaves for the key map's bias: the argument as a one-row matrix. -/
theorem V_bk (c : Dev nD) : (V m c main_v9 : FVec Ideal S1x1024 .f32)
    = shapeCast S1x1024 (arg m c main_arg6 : FVec Ideal S1024 .f32) shapeCasts_S1024_S1x1024 := by
  dsimp only [Gen.V, Gen.hostOps0]; after_results; rfl

/-- Point t's key-bias tile, read as a vector, is the key map's bias. -/
theorem bkTile_vec (c : Dev nD) (t : Fin cfg0.N) : vec1 (bkTile m c t) = vec (arg m c main_arg6 : S1024.Idx → EReal) := by
  funext j
  obtain ⟨-, -, -, -, -, -, ⟨e0, e1⟩, -⟩ := idx_facts t
  show iblk m c 6 t (ix2 (0 : Fin 1) j) = (arg m c main_arg6 : S1024.Idx → EReal) (ix1 j)
  unfold iblk
  rw [View.read_apply]
  show (V m c main_v9 : FVec Ideal S1x1024 .f32) _ = _
  rw [V_bk]
  refine shapeCast_apply _ shapeCasts_S1024_S1x1024 _ (ix1 j) ?_
  rw [Shape.rowMajor_val_two, Shape.rowMajor_val_one]
  show j.val = (win0_6.index t (0 : Fin 2) * 1 + 1 * 0) * 1024 + (win0_6.index t (1 : Fin 2) * 1024 + 1 * j.val)
  omega

/-- What the host code leaves for the value map's matrix: the argument transposed, then narrowed. -/
theorem V_wv (c : Dev nD) : (V m c main_v5 : FVec Ideal S1024x1024 .bf16)
    = truncf (F := Ideal) .bf16 (transpose S1024x1024 [1, 0] (arg m c main_arg7 : FVec Ideal S1024x1024 .f32) transposes_S1024x1024_S1024x1024_1_0) bitsLt_bf16_f32 := by
  dsimp only [Gen.V, Gen.hostOps0]; after_results

/-- Point t's value-map tile, read transposed, is the value map's matrix. -/
theorem wvTile_mat (c : Dev nD) (t : Fin cfg0.N) : matT (wvTile m c t) = mat (arg m c main_arg7 : S1024x1024.Idx → EReal) := by
  funext j k
  obtain ⟨-, -, -, -, -, -, -, ⟨e0, e1⟩, -⟩ := idx_facts t
  show iblk m c 7 t (ix2 k j) = (arg m c main_arg7 : S1024x1024.Idx → EReal) (ix2 j k)
  unfold iblk
  rw [View.read_apply]
  show (V m c main_v5 : FVec Ideal S1024x1024 .bf16) _ = _
  rw [V_wv]
  refine transpose_apply [1, 0] _ transposes_S1024x1024_S1024x1024_1_0 _ (ix2 j k) fun b => ?_
  match b with
  | ⟨0, _⟩ => show k.val = win0_7.index t (0 : Fin 2) * 1024 + 1 * k.val; omega
  | ⟨1, _⟩ => show j.val = win0_7.index t (1 : Fin 2) * 1024 + 1 * j.val; omega

/-- What the host code leaves for the value map's bias: the argument as a one-row matrix. -/
theorem V_bv (c : Dev nD) : (V m c main_v10 : FVec Ideal S1x1024 .f32)
    = shapeCast S1x1024 (arg m c main_arg8 : FVec Ideal S1024 .f32) shapeCasts_S1024_S1x1024 := by
  dsimp only [Gen.V, Gen.hostOps0]; after_results; rfl

/-- Point t's value-bias tile, read as a vector, is the value map's bias. -/
theorem bvTile_vec (c : Dev nD) (t : Fin cfg0.N) : vec1 (bvTile m c t) = vec (arg m c main_arg8 : S1024.Idx → EReal) := by
  funext j
  obtain ⟨-, -, -, -, -, -, -, -, ⟨e0, e1⟩, -⟩ := idx_facts t
  show iblk m c 8 t (ix2 (0 : Fin 1) j) = (arg m c main_arg8 : S1024.Idx → EReal) (ix1 j)
  unfold iblk
  rw [View.read_apply]
  show (V m c main_v10 : FVec Ideal S1x1024 .f32) _ = _
  rw [V_bv]
  refine shapeCast_apply _ shapeCasts_S1024_S1x1024 _ (ix1 j) ?_
  rw [Shape.rowMajor_val_two, Shape.rowMajor_val_one]
  show j.val = (win0_8.index t (0 : Fin 2) * 1 + 1 * 0) * 1024 + (win0_8.index t (1 : Fin 2) * 1024 + 1 * j.val)
  omega

/-- What the host code leaves for the output map's matrix: the argument transposed, then narrowed. -/
theorem V_wo (c : Dev nD) : (V m c main_v7 : FVec Ideal S1024x1024 .bf16)
    = truncf (F := Ideal) .bf16 (transpose S1024x1024 [1, 0] (arg m c main_arg9 : FVec Ideal S1024x1024 .f32) transposes_S1024x1024_S1024x1024_1_0) bitsLt_bf16_f32 := by
  dsimp only [Gen.V, Gen.hostOps0]; after_results

/-- Point t's output-map tile, read transposed, is the output map's matrix. -/
theorem woTile_mat (c : Dev nD) (t : Fin cfg0.N) : matT (woTile m c t) = mat (arg m c main_arg9 : S1024x1024.Idx → EReal) := by
  funext j k
  obtain ⟨-, -, -, -, -, -, -, -, -, ⟨e0, e1⟩, -⟩ := idx_facts t
  show iblk m c 9 t (ix2 k j) = (arg m c main_arg9 : S1024x1024.Idx → EReal) (ix2 j k)
  unfold iblk
  rw [View.read_apply]
  show (V m c main_v7 : FVec Ideal S1024x1024 .bf16) _ = _
  rw [V_wo]
  refine transpose_apply [1, 0] _ transposes_S1024x1024_S1024x1024_1_0 _ (ix2 j k) fun b => ?_
  match b with
  | ⟨0, _⟩ => show k.val = win0_9.index t (0 : Fin 2) * 1024 + 1 * k.val; omega
  | ⟨1, _⟩ => show j.val = win0_9.index t (1 : Fin 2) * 1024 + 1 * j.val; omega

/-- What the host code leaves for the output map's bias: the argument as a one-row matrix. -/
theorem V_bo (c : Dev nD) : (V m c main_v11 : FVec Ideal S1x1024 .f32)
    = shapeCast S1x1024 (arg m c main_arg10 : FVec Ideal S1024 .f32) shapeCasts_S1024_S1x1024 := by
  dsimp only [Gen.V, Gen.hostOps0]; after_results; rfl

/-- Point t's output-bias tile, read as a vector, is the output map's bias. -/
theorem boTile_vec (c : Dev nD) (t : Fin cfg0.N) : vec1 (boTile m c t) = vec (arg m c main_arg10 : S1024.Idx → EReal) := by
  funext j
  obtain ⟨-, -, -, -, -, -, -, -, -, -, ⟨e0, e1⟩, -⟩ := idx_facts t
  show iblk m c 10 t (ix2 (0 : Fin 1) j) = (arg m c main_arg10 : S1024.Idx → EReal) (ix1 j)
  unfold iblk
  rw [View.read_apply]
  show (V m c main_v11 : FVec Ideal S1x1024 .f32) _ = _
  rw [V_bo]
  refine shapeCast_apply _ shapeCasts_S1024_S1x1024 _ (ix1 j) ?_
  rw [Shape.rowMajor_val_two, Shape.rowMajor_val_one]
  show j.val = (win0_10.index t (0 : Fin 2) * 1 + 1 * 0) * 1024 + (win0_10.index t (1 : Fin 2) * 1024 + 1 * j.val)
  omega

/-! ## What a point writes back, and the array after the run -/

/-- The result array as one function of the argument arrays: row n is the token function of rows n of the inputs. -/
def result (c : Dev nD) : FVec Ideal S16384x1024 .f32 :=
  whole (arg m c main_arg0) (arg m c main_arg1) (arg m c main_arg2) (arg m c main_arg3) (arg m c main_arg4)
    (arg m c main_arg5) (arg m c main_arg6) (arg m c main_arg7) (arg m c main_arg8) (arg m c main_arg9) (arg m c main_arg10)

/-- The result at an index whose coordinates are n and j. -/
theorem result_apply (c : Dev nD) (i : S16384x1024.Idx) (n : Fin 16384) (j : Fin 1024) (h0 : (i 0).val = n.val) (h1 : (i 1).val = j.val) :
    result m c i = token (mat (arg m c main_arg3)) (vec (arg m c main_arg4)) (mat (arg m c main_arg5)) (vec (arg m c main_arg6))
      (mat (arg m c main_arg7)) (vec (arg m c main_arg8)) (mat (arg m c main_arg9)) (vec (arg m c main_arg10))
      (rowOf (arg m c main_arg0 : S16384x1024.Idx → EReal) n) (rowOf (arg m c main_arg1 : S16384x1024.Idx → EReal) n)
      (rowOf (arg m c main_arg2 : S16384x1024.Idx → EReal) n) j := by
  obtain rfl : (⟨(i 0).val, idx2_lt0 i⟩ : Fin 16384) = n := Fin.ext h0
  obtain rfl : (⟨(i 1).val, idx2_lt1 i⟩ : Fin 1024) = j := Fin.ext h1
  rfl

/-- Entry (p, j) of point t's output tile is the result at (256·t + p, j). -/
theorem tile_result (c : Dev nD) (t : Fin cfg0.N) (p : Fin 256) (j : Fin 1024) :
    out0_11 (qTile m c t) (kTile m c t) (vTile m c t) (wqTile m c t) (bqTile m c t) (wkTile m c t) (bkTile m c t)
        (wvTile m c t) (bvTile m c t) (woTile m c t) (boTile m c t) (ix2 p j)
      = token (mat (arg m c main_arg3)) (vec (arg m c main_arg4)) (mat (arg m c main_arg5)) (vec (arg m c main_arg6))
          (mat (arg m c main_arg7)) (vec (arg m c main_arg8)) (mat (arg m c main_arg9)) (vec (arg m c main_arg10))
          (rowOf (arg m c main_arg0 : S16384x1024.Idx → EReal) (tokenAt t p)) (rowOf (arg m c main_arg1 : S16384x1024.Idx → EReal) (tokenAt t p))
          (rowOf (arg m c main_arg2 : S16384x1024.Idx → EReal) (tokenAt t p)) j := by
  unfold out0_11
  rw [View.canon_unit_zero hz]
  simp only [View.ld_unit_zero (S := S256x1024) hz, View.ld_unit_zero (S := S1024x1024) hz, View.ld_unit_zero (S := S1x1024) hz]
  rw [tile_apply, wqTile_mat, bqTile_vec, wkTile_mat, bkTile_vec, wvTile_mat, bvTile_vec, woTile_mat, boTile_vec,
    qTile_row, kTile_row, vTile_row]

/-- What point t writes back is its block of the result. -/
theorem flushed_eq (c : Dev nD) (t : Fin cfg0.N) :
    (dats m 0 c).flushed 11 t = ((cfg0.win 11).blk t).view.read (Elt Ideal) (result m c) := by
  rw [flushed11]
  funext y
  obtain ⟨p, j, rfl⟩ : ∃ (p : Fin 256) (j : Fin 1024), y = ix2 p j := ⟨y 0, y 1, eq_ix2 y⟩
  obtain ⟨-, -, -, -, -, -, -, -, -, -, -, ⟨e0, e1⟩⟩ := idx_facts t
  rw [View.read_apply]
  show out0_11 (qTile m c t) (kTile m c t) (vTile m c t) (wqTile m c t) (bqTile m c t) (wkTile m c t) (bkTile m c t)
      (wvTile m c t) (bvTile m c t) (woTile m c t) (boTile m c t) (ix2 p j) = _
  rw [tile_result]
  refine (result_apply m c _ (tokenAt t p) j ?_ ?_).symm
  · show win0_11.index t (0 : Fin 2) * 256 + 1 * p.val = 256 * t.val + p.val; omega
  · show win0_11.index t (1 : Fin 2) * 1024 + 1 * j.val = j.val; omega

/-- An index of the result is in point t's block iff each coordinate is in the block's range on its axis. -/
theorem mem_blk (t : Fin cfg0.N) (i : S16384x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v12).slice (win0_11.rect t)).set ↔ _
  rw [View.set_slice_whole, Rect.mem_set_unit]
  exact Iff.rfl

/-- Every index of the result is in some point's block: row n is in the block of point n / 256. -/
theorem cover (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  have hN : (i 0).val / 256 < cfg0.N := by rw [show cfg0.N = 64 from N_0]; omega
  obtain ⟨-, -, -, -, -, -, -, -, -, -, -, ⟨e0, e1⟩⟩ := idx_facts ⟨(i 0).val / 256, hN⟩
  have e0' : win0_11.index ⟨(i 0).val / 256, hN⟩ (0 : Fin 2) = (i 0).val / 256 := e0
  refine ⟨⟨(i 0).val / 256, hN⟩, flush0_11 _, ?_⟩
  rw [mem_blk]
  intro a
  match a with
  | ⟨0, _⟩ =>
    show win0_11.index ⟨(i 0).val / 256, hN⟩ (0 : Fin 2) * 256 ≤ (i 0).val ∧ (i 0).val < win0_11.index ⟨(i 0).val / 256, hN⟩ (0 : Fin 2) * 256 + 256
    omega
  | ⟨1, _⟩ =>
    show win0_11.index ⟨(i 0).val / 256, hN⟩ (1 : Fin 2) * 1024 ≤ (i 1).val ∧ (i 1).val < win0_11.index ⟨(i 0).val / 256, hN⟩ (1 : Fin 2) * 1024 + 1024
    omega

/-- So the result array ends holding `result`. -/
theorem final (c : Dev nD) : (dats m 0 c).arrAt 11 cfg0.N = result m c :=
  (dats m 0 c).arrAt_eq_of_cover 11 (result m c) (fun t _ => flushed_eq m c t) cover

/-- The kernel's run: it ends with the result array at `result` and every argument array as launched. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.Whole

end
-- ==== Proof.RefRows.lean ====
/-
  The reference program's result, read one row at a time: at row n and feature j it is the token function
  (Proof/TokenAttn.lean) of rows n of the three inputs.
-/
import proofs.«129779_j31379031065005_1_alg».proof.Proof.Gen.ReferenceIdeal.Read
import proofs.«129779_j31379031065005_1_alg».proof.Proof.TokenAttn
import Idealize.ShloMosaic.Lib.ValueIdx
import Idealize.ShloMosaic.PureOps.Ideal.Laws

noncomputable section

open scoped BigOperators

namespace Cert.ReferenceIdeal.RefRows

open Cert.ReferenceIdeal Cert.ReferenceIdeal.Gen Cert.ReferenceIdeal.Read Cert.TokenAttn
open Idealize.ShloMosaic Idealize.ShloMosaic.TcCoe Idealize.ShloMosaic.ValueIdx

/-- An array of 16384 rows of 1024 features, as the reference holds it. -/
abbrev Rows := (⟨S16384x1024, .f32⟩ : BufTy).Contents (Elt Ideal)
/-- A weight matrix [1024, 1024] … -/
abbrev Mat := (⟨S1024x1024, .f32⟩ : BufTy).Contents (Elt Ideal)
/-- … and a bias vector [1024]. -/
abbrev Vec := (⟨S1024, .f32⟩ : BufTy).Contents (Elt Ideal)

/-- A product against the transposed matrix plus the bias row, at row n and feature j, is the affine map of row n:
    the sum over k of y (n, k) · W (j, k), plus b j. -/
theorem lin_apply (y : Rows) (W : Mat) (b : Vec) (n : Fin 16384) (j : Fin 1024) :
    val_main_v4 (F := Ideal) y W b (ix2 n j) = affine (mat W) (vec b) (rowOf y n) j := by
  rw [val_main_v4_apply, val_main_v1_apply, val_main_v3_apply, val_main_v2_apply]
  show (∑ k : Fin 1024, _) + _ = (∑ k : Fin 1024, y (ix2 n k) * W (ix2 j k)) + b (ix1 j)
  refine congrArg₂ (· + ·) (Finset.sum_congr rfl fun k _ => ?_) ?_
  · rw [val_main_v0_apply]
    refine congrArg₂ (· * ·) (congrArg y ?_) (congrArg W ?_)
    · exact funext fun a => by match a with | ⟨0, _⟩ => rfl | ⟨1, _⟩ => rfl
    · exact funext fun a => by match a with | ⟨0, _⟩ => rfl | ⟨1, _⟩ => rfl
  · exact congrArg b (funext fun a => by match a with | ⟨0, _⟩ => rfl)

/-- The three rows a token's heads are cut from: the affine maps of rows n of the query, key and value inputs. -/
abbrev row (W : Mat) (b : Vec) (y : Rows) (n : Fin 16384) : Fin 1024 → EReal := affine (mat W) (vec b) (rowOf y n)

/-- Cutting 1024 features into 16 heads of 64: entry (n, h, d) of the reshaped array is entry (n, 64·h + d). -/
theorem heads_apply (y : Rows) (W : Mat) (b : Vec) (n : Fin 16384) (h : Fin 16) (d : Fin 64) :
    val_main_v5 (F := Ideal) y W b (ix3 n h d) = row W b y n (feat h d) := by
  rw [val_main_v5_apply]
  refine Eq.trans (congrArg (val_main_v4 (F := Ideal) y W b) ?_) (lin_apply y W b n (feat h d))
  funext a
  match a with
  | ⟨0, _⟩ => exact Fin.ext (by show ((n.val * 16 + h.val) * 64 + d.val) / 1024 = n.val; have := h.isLt; have := d.isLt; omega)
  | ⟨1, _⟩ => exact Fin.ext (by show ((n.val * 16 + h.val) * 64 + d.val) % 1024 = h.val * 64 + d.val; have := h.isLt; have := d.isLt; omega)

section Stages

variable (x0 x1 x2 : Rows) (x3 : Mat) (x4 : Vec) (x5 : Mat) (x6 : Vec) (x7 : Mat) (x8 : Vec) (x9 : Mat) (x10 : Vec)

/-- Entry (n, h, g) of the scaled products: head h's query coordinates against head g's key coordinates, over 8. -/
theorem score_apply (n : Fin 16384) (h g : Fin 16) :
    val_main_v20 (F := Ideal) x0 x1 x3 x4 x5 x6 (ix3 n h g) = score (row x3 x4 x0 n) (row x5 x6 x1 n) h g := by
  rw [val_main_v20_apply, val_main_v18_apply, val_main_v19_apply]
  show Ideal.div (∑ k : Fin 64, _) eight = Ideal.div (∑ d : Fin 64, row x3 x4 x0 n (feat h d) * row x5 x6 x1 n (feat g d)) eight
  refine congrArg (fun s => Ideal.div s eight) (Finset.sum_congr rfl fun k _ => ?_)
  refine congrArg₂ (· * ·) (Eq.trans (congrArg _ ?_) (heads_apply x0 x3 x4 n h k)) (Eq.trans (congrArg _ ?_) (heads_apply x1 x5 x6 n g k))
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

/-- The last axis of the [16384, 16, 16] array is the one the maximum runs over. -/
theorem lastAxis : S16384x16x16.Reduces [2] S16384x16 := by decide

/-- The index (n, h) of the reduced array with g put back on the last axis is (n, h, g). -/
theorem lift_ix3 (n : Fin 16384) (h : Fin 16) (g : Fin 16) :
    lastAxis.lift (ix2 n h) g = ix3 n h g := by
  funext c; apply Fin.ext
  match c with
  | ⟨0, _⟩ => rfl
  | ⟨1, _⟩ => rfl
  | ⟨2, _⟩ => rfl

/-- Entry (n, h) of the row maxima: the largest of head h's sixteen scores, from −∞ and once more against −∞. -/
theorem peak_apply (n : Fin 16384) (h : Fin 16) :
    val_main_v23 (F := Ideal) x0 x1 x3 x4 x5 x6 (ix2 n h) = peak (score (row x3 x4 x0 n) (row x5 x6 x1 n) h) := by
  rw [val_main_v23_apply, val_main_v22_apply]
  unfold val_main_v21
  rw [Host.reduce_eq_fold_single FloatOps.maximumf _ _ reducesTo_S16384x16x16_S16384x16_d2 lastAxis h_S_]
  show max negInf ((Finset.univ : Finset (Fin 16)).fold max negInf _) = _
  unfold peak
  refine congrArg (fun f => max negInf ((Finset.univ : Finset (Fin 16)).fold max negInf f)) (funext fun g => ?_)
  exact Eq.trans (congrArg (val_main_v20 (F := Ideal) x0 x1 x3 x4 x5 x6) (lift_ix3 n h g)) (score_apply x0 x1 x3 x4 x5 x6 n h g)

/-- Entry (n, h, g) of the exponentials: head h's score for g minus h's largest score, exponentiated. -/
theorem weight_apply (n : Fin 16384) (h g : Fin 16) :
    val_main_v27 (F := Ideal) x0 x1 x3 x4 x5 x6 (ix3 n h g) = weight (score (row x3 x4 x0 n) (row x5 x6 x1 n) h) g := by
  rw [val_main_v27_apply, val_main_v26_apply, val_main_v25_apply, val_main_v24_apply]
  show Ideal.exp (_ - _) = Ideal.exp (score (row x3 x4 x0 n) (row x5 x6 x1 n) h g - peak (score (row x3 x4 x0 n) (row x5 x6 x1 n) h))
  refine congrArg Ideal.exp (congrArg₂ (· - ·) (score_apply x0 x1 x3 x4 x5 x6 n h g) ?_)
  refine Eq.trans (congrArg (val_main_v23 (F := Ideal) x0 x1 x3 x4 x5 x6) ?_) (peak_apply x0 x1 x3 x4 x5 x6 n h)
  exact funext fun a => by match a with | ⟨0, _⟩ => rfl | ⟨1, _⟩ => rfl

/-- Entry (n, h) of the row sums: the sum of head h's sixteen exponentials (the sum starts from the word 0.0). -/
theorem total_apply (n : Fin 16384) (h : Fin 16) :
    val_main_v28 (F := Ideal) x0 x1 x3 x4 x5 x6 (ix2 n h)
      = ∑ g : Fin 16, weight (score (row x3 x4 x0 n) (row x5 x6 x1 n) h) g := by
  rw [val_main_v28_apply, val_main_cst_2_apply]
  show Ideal.ofBits .f32 0x00000000#32 + _ = _
  rw [Ideal.ofBits_zero_f32, zero_add]
  refine Finset.sum_congr rfl fun g _ => ?_
  refine Eq.trans (congrArg (val_main_v27 (F := Ideal) x0 x1 x3 x4 x5 x6) ?_) (weight_apply x0 x1 x3 x4 x5 x6 n h g)
  exact funext fun a => by match a with | ⟨0, _⟩ => rfl | ⟨1, _⟩ => rfl | ⟨2, _⟩ => rfl

/-- Entry (n, h, g) of the soft maximum: head h's exponential for g over the sum of its sixteen. -/
theorem share_apply (n : Fin 16384) (h g : Fin 16) :
    val_main_v31 (F := Ideal) x0 x1 x3 x4 x5 x6 (ix3 n h g) = share (score (row x3 x4 x0 n) (row x5 x6 x1 n) h) g := by
  rw [val_main_v31_apply, val_main_v30_apply, val_main_v29_apply]
  show Ideal.div _ _ = Ideal.div (weight (score (row x3 x4 x0 n) (row x5 x6 x1 n) h) g)
    (∑ g' : Fin 16, weight (score (row x3 x4 x0 n) (row x5 x6 x1 n) h) g')
  refine congrArg₂ Ideal.div (weight_apply x0 x1 x3 x4 x5 x6 n h g) ?_
  refine Eq.trans (congrArg (val_main_v28 (F := Ideal) x0 x1 x3 x4 x5 x6) ?_) (total_apply x0 x1 x3 x4 x5 x6 n h)
  exact funext fun a => by match a with | ⟨0, _⟩ => rfl | ⟨1, _⟩ => rfl

/-- Entry (n, c) of the heads' results laid side by side: with h = c / 64 and d = c % 64, the sum over the heads g of
    h's share for g times coordinate d of g's value. -/
theorem blend_apply (n : Fin 16384) (c : Fin 1024) :
    val_main_v33 (F := Ideal) x0 x1 x2 x3 x4 x5 x6 x7 x8 (ix2 n c)
      = blend (row x3 x4 x0 n) (row x5 x6 x1 n) (row x7 x8 x2 n) c := by
  rw [val_main_v33_apply]
  have e : idx_main_v33 (ix2 n c) = ix3 n (headOf c) (coordOf c) := by
    funext a
    match a with
    | ⟨0, _⟩ => exact Fin.ext (by show (n.val * 1024 + c.val) / 1024 = n.val; have := c.isLt; omega)
    | ⟨1, _⟩ => exact Fin.ext (by show (n.val * 1024 + c.val) / 64 % 16 = c.val / 64; have := c.isLt; omega)
    | ⟨2, _⟩ => exact Fin.ext (by show (n.val * 1024 + c.val) % 64 = c.val % 64; omega)
  rw [e, val_main_v32_apply]
  unfold blend
  refine Finset.sum_congr rfl fun g _ => ?_
  refine congrArg₂ (· * ·) (Eq.trans (congrArg _ ?_) (share_apply x0 x1 x3 x4 x5 x6 n (headOf c) g))
    (Eq.trans (congrArg _ ?_) (heads_apply x2 x7 x8 n g (coordOf c)))
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

end Stages

/-- Row n, feature j of the reference's result is the token function of rows n of the inputs. -/
theorem result_apply (x0 x1 x2 : (⟨S16384x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (n : Fin 16384) (j : Fin 1024) :
    val_main_v38 (F := Ideal) x0 x1 x2 x3 x4 x5 x6 x7 x8 x9 x10 (ix2 n j)
      = token (mat x3) (vec x4) (mat x5) (vec x6) (mat x7) (vec x8) (mat x9) (vec x10) (rowOf x0 n) (rowOf x1 n) (rowOf x2 n) j := by
  refine Eq.trans (lin_apply (val_main_v33 (F := Ideal) x0 x1 x2 x3 x4 x5 x6 x7 x8) x9 x10 n j) ?_
  unfold token
  refine congrArg (fun r => affine (mat x9) (vec x10) r j) (funext fun c => ?_)
  exact blend_apply x0 x1 x2 x3 x4 x5 x6 x7 x8 n c

end Cert.ReferenceIdeal.RefRows

end
-- ==== Proof.lean ====
/-
  Attention over the heads of each token, computed by a tiled kernel and by plain array code: the two agree.

  Every one of the 16384 tokens has 1024 features, read as 16 heads of 64 coordinates. Both programs send a token's
  query, key and value rows through an affine map each, let every head score every head of the same token (inner
  product of the 64 coordinates, over 8), turn each head's sixteen scores into shares by the soft maximum, blend the
  heads' values with those shares, and send the blended row through a last affine map: the token function of
  Proof/TokenAttn.lean. The kernel does this 256 tokens at a time, on matrices transposed beforehand and narrowed to a
  shorter format, which over the extended reals changes nothing; its result array ends holding the token function of
  every row (Proof/TileOps.lean, Proof/TileRows.lean, Proof/TileArray.lean). The array code does it for all rows at
  once, and its result, read at a row, is the same token function (Proof/RefRows.lean). No sum is re-associated across
  the two and nothing is cancelled, so the inputs' finiteness is never used. The kernel's idealization rewrote no
  operation, so that conjunct asks nothing; the three programs' runs come from their generated frames and run.
-/
import proofs.«129779_j31379031065005_1_alg».proof.Defs
import proofs.«129779_j31379031065005_1_alg».proof.Proof.Gen.Kernel
import proofs.«129779_j31379031065005_1_alg».proof.Proof.Gen.Kernel.Skeleton
import proofs.«129779_j31379031065005_1_alg».proof.Proof.Gen.Kernel.Launch
import proofs.«129779_j31379031065005_1_alg».proof.Proof.Gen.Kernel.Points
import proofs.«129779_j31379031065005_1_alg».proof.Proof.Gen.Kernel.Frame
import proofs.«129779_j31379031065005_1_alg».proof.Proof.Gen.KernelIdeal
import proofs.«129779_j31379031065005_1_alg».proof.Proof.Gen.KernelIdeal.Skeleton
import proofs.«129779_j31379031065005_1_alg».proof.Proof.Gen.KernelIdeal.Launch
import proofs.«129779_j31379031065005_1_alg».proof.Proof.Gen.KernelIdeal.Points
import proofs.«129779_j31379031065005_1_alg».proof.Proof.Gen.KernelIdeal.Frame
import proofs.«129779_j31379031065005_1_alg».proof.Proof.Gen.ReferenceIdeal
import proofs.«129779_j31379031065005_1_alg».proof.Proof.Gen.KernelIdeal.Value
import proofs.«129779_j31379031065005_1_alg».proof.Proof.Gen.ReferenceIdeal.Run
import proofs.«129779_j31379031065005_1_alg».proof.Proof.Gen.ReferenceIdeal.Read
import proofs.«129779_j31379031065005_1_alg».proof.Proof.Gen.Pre_finite_inputs
import proofs.«129779_j31379031065005_1_alg».proof.Proof.TileArray
import proofs.«129779_j31379031065005_1_alg».proof.Proof.RefRows
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the array code: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both results, from arguments that agree, are the token function of every row. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v38_eq, a0, a1, a2, a3, a4, a5, a6, a7, a8, a9, a10]
  funext i
  obtain ⟨n, j, rfl⟩ : ∃ (n : Fin 16384) (j : Fin 1024), i = ix2 n j := ⟨i 0, i 1, eq_ix2 i⟩
  exact (Cert.ReferenceIdeal.RefRows.result_apply _ _ _ _ _ _ _ _ _ _ _ n j).trans
    (Cert.KernelIdeal.Whole.result_apply m c (ix2 n j) n j rfl rfl).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
